-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S10000x512 .f32) (main_arg1 : IVec S2x160000 32) (main_arg2 : FVec F S128x512 .f32) (main_arg3 : FVec F S128x512 .f32) (main_arg4 : FVec F S128 .f32) (main_arg5 : FVec F S64x128 .f32) (main_arg6 : FVec F S64x128 .f32) (main_arg7 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x128 : Shape := ⟨2, ![1, 128]⟩
abbrev S10000x128 : Shape := ⟨2, ![10000, 128]⟩
abbrev S1000x512 : Shape := ⟨2, ![1000, 512]⟩
abbrev S1000x128 : Shape := ⟨2, ![1000, 128]⟩
abbrev S160000x128 : Shape := ⟨2, ![160000, 128]⟩
abbrev S1x64 : Shape := ⟨2, ![1, 64]⟩
abbrev S10000x64 : Shape := ⟨2, ![10000, 64]⟩
abbrev S1000x64 : Shape := ⟨2, ![1000, 64]⟩

abbrev nBuf : Space → Nat
  | .hbm => 66
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S10000x512, .f32⟩
  | .hbm, ⟨23, _⟩ => ⟨S160000x1, .i32⟩
  | .hbm, ⟨24, _⟩ => ⟨S10000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S10000, .f32⟩
  | .hbm, ⟨29, _⟩ => ⟨S160000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x512, .f32⟩
  | .hbm, ⟨36, _⟩ => ⟨S10000x512, .f32⟩
  | .hbm, ⟨37, _⟩ => ⟨S1x128, .f32⟩
  | .hbm, ⟨38, _⟩ => ⟨S10000x128, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000x128, .f32⟩
  | .hbm, ⟨48, _⟩ => ⟨S_, .f32⟩
  | .hbm, ⟨49, _⟩ => ⟨S10000x128, .f32⟩
  | .hbm, ⟨50, _⟩ => ⟨S160000x1, .i32⟩
  | .hbm, ⟨51, _⟩ => ⟨S10000x128, .f32⟩
  | .hbm, ⟨52, _⟩ => ⟨S_, .f32⟩
  | .hbm, ⟨53, _⟩ => ⟨S160000, .f32⟩
  | .hbm, ⟨54, _⟩ => ⟨S_, .f32⟩
  | .hbm, ⟨55, _⟩ => ⟨S10000, .f32⟩
  | .hbm, ⟨56, _⟩ => ⟨S160000x1, .i32⟩
  | .hbm, ⟨57, _⟩ => ⟨S10000, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x128, .f32⟩
  | .hbm, ⟨63, _⟩ => ⟨S10000x128, .f32⟩
  | .hbm, ⟨64, _⟩ => ⟨S1x64, .f32⟩
  | .hbm, ⟨65, _⟩ => ⟨S10000x64, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S128x512, .f32⟩
  | .local _ .vmem, ⟨5, _⟩ => ⟨S128x512, .f32⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S64x128, .f32⟩
  | .local _ .vmem, ⟨14, _⟩ => ⟨S64x128, .f32⟩
  | .local _ .vmem, ⟨15, _⟩ => ⟨S1x64, .f32⟩
  | .local _ .vmem, ⟨16, _⟩ => ⟨S1000x64, .f32⟩
  | .local _ .vmem, ⟨17, _⟩ => ⟨S1000x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  shapeCasts_S64_S1x64 : S64.ShapeCasts S1x64
  shapeCasts_S1000x128_S1000x128 : S1000x128.ShapeCasts S1000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S128x512_S1000x128_1_1_0_0_n_n_wf : DotDims.WF S1000x512 S128x512 S1000x128 [1] [1] [0] [0] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S1000x128_S64x128_S1000x64_1_1_0_0_n_n_wf : DotDims.WF S1000x128 S64x128 S1000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S10000x64.size a
  hwx1_5 : ∀ i : grid1.Coords, EltTy.bits .f32 = 32 ∨ (Rect.block (s := S10000x64) S1000x64.size (cc1_transform_5 i) (hinb1_5 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S128x512_S1000x128_1_1_0_0_n_n : DotDims S1000x512 S128x512 S1000x128 where
  lhsContracting := [1]
  rhsContracting := [1]
  lhsNonContracting := [0]
  rhsNonContracting := [0]
  lhsBatch := []
  rhsBatch := []
  wf := dot_S1000x512_S128x512_S1000x128_1_1_0_0_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S1000x128_S64x128_S1000x64_1_1_0_0_n_n : DotDims S1000x128 S64x128 S1000x64 where
  lhsContracting := [1]
  rhsContracting := [1]
  lhsNonContracting := [0]
  rhsNonContracting := [0]
  lhsBatch := []
  rhsBatch := []
  wf := dot_S1000x128_S64x128_S1000x64_1_1_0_0_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S512x128 : Shape := ⟨2, ![512, 128]⟩
abbrev S10000x128 : Shape := ⟨2, ![10000, 128]⟩
abbrev S1x128 : Shape := ⟨2, ![1, 128]⟩
abbrev S160000x128 : Shape := ⟨2, ![160000, 128]⟩
abbrev S128x64 : Shape := ⟨2, ![128, 64]⟩
abbrev S10000x64 : Shape := ⟨2, ![10000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S10000x512, .f32⟩
  | .hbm, ⟨23, _⟩ => ⟨S160000x1, .i32⟩
  | .hbm, ⟨24, _⟩ => ⟨S10000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S10000, .f32⟩
  | .hbm, ⟨29, _⟩ => ⟨S160000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x512, .f32⟩
  | .hbm, ⟨36, _⟩ => ⟨S10000x512, .f32⟩
  | .hbm, ⟨37, _⟩ => ⟨S512x128, .f32⟩
  | .hbm, ⟨38, _⟩ => ⟨S10000x128, .f32⟩
  | .hbm, ⟨39, _⟩ => ⟨S512x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S160000x128, .f32⟩
  | .hbm, ⟨57, _⟩ => ⟨S_, .f32⟩
  | .hbm, ⟨58, _⟩ => ⟨S10000x128, .f32⟩
  | .hbm, ⟨59, _⟩ => ⟨S160000x1, .i32⟩
  | .hbm, ⟨60, _⟩ => ⟨S10000x128, .f32⟩
  | .hbm, ⟨61, _⟩ => ⟨S_, .f32⟩
  | .hbm, ⟨62, _⟩ => ⟨S160000, .f32⟩
  | .hbm, ⟨63, _⟩ => ⟨S_, .f32⟩
  | .hbm, ⟨64, _⟩ => ⟨S10000, .f32⟩
  | .hbm, ⟨65, _⟩ => ⟨S160000x1, .i32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S128x64, .f32⟩
  | .hbm, ⟨74, _⟩ => ⟨S10000x64, .f32⟩
  | .hbm, ⟨75, _⟩ => ⟨S128x64, .f32⟩
  | .hbm, ⟨76, _⟩ => ⟨S10000x64, .f32⟩
  | .hbm, ⟨77, _⟩ => ⟨S10000x64, .f32⟩
  | .hbm, ⟨78, _⟩ => ⟨S1x64, .f32⟩
  | .hbm, ⟨79, _⟩ => ⟨S10000x64, .f32⟩
  | .hbm, ⟨80, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S128x512_S512x128_1_0 : S128x512.Transposes [1, 0] S512x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x128_S10000x128_1_0_0_1_n_n_wf : DotDims.WF S10000x512 S512x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x64_S10000x64_1_0_0_1_n_n_wf : DotDims.WF S10000x128 S128x64 S10000x64 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.CombineSpec.lean ====
/-
  One SAGE "combine" step as a whole-array function over the extended reals.

  For node features of width K and an output width M, row r of the result is
      (∑ₖ agg[r,k]·Wl[c,k]  +  ∑ₖ x[r,k]·Wr[c,k])  +  b[c]          (column c),
  both weight matrices being contracted along their LAST axis (so no transpose appears). The first layer
  follows it by a rectifier: the maximum with the value of the zero word.
-/
import Idealize.ShloMosaic.PureOps.Ideal
import Idealize.ShloMosaic.Lib.ValueIdx

noncomputable section

namespace Cert.Sage

open Idealize.ShloMosaic Idealize.ShloMosaic.ValueIdx

/-- The combine step: the two row-by-row products with the weight rows, summed, plus the bias of the column. -/
def combine {N K M : Nat} (agg x : (⟨2, ![N, K]⟩ : Shape).Idx → EReal) (wl wr : (⟨2, ![M, K]⟩ : Shape).Idx → EReal)
    (b : (⟨1, ![M]⟩ : Shape).Idx → EReal) : (⟨2, ![N, M]⟩ : Shape).Idx → EReal :=
  fun i => ((∑ k : Fin K, agg (ix2 (i 0) k) * wl (ix2 (i 1) k)) + ∑ k : Fin K, x (ix2 (i 0) k) * wr (ix2 (i 1) k)) + b (ix1 (i 1))

/-- The combine step followed by the rectifier. The threshold is kept as the value of the zero word: both programs
    compare against that same word. -/
def combineRelu {N K M : Nat} (agg x : (⟨2, ![N, K]⟩ : Shape).Idx → EReal) (wl wr : (⟨2, ![M, K]⟩ : Shape).Idx → EReal)
    (b : (⟨1, ![M]⟩ : Shape).Idx → EReal) : (⟨2, ![N, M]⟩ : Shape).Idx → EReal :=
  fun i => max (combine agg x wl wr b i) (Ideal.ofBits .f32 0x00000000#32)

theorem combine_apply {N K M : Nat} (agg x : (⟨2, ![N, K]⟩ : Shape).Idx → EReal) (wl wr : (⟨2, ![M, K]⟩ : Shape).Idx → EReal)
    (b : (⟨1, ![M]⟩ : Shape).Idx → EReal) (r : Fin N) (c : Fin M) :
    combine agg x wl wr b (ix2 r c)
      = ((∑ k : Fin K, agg (ix2 r k) * wl (ix2 c k)) + ∑ k : Fin K, x (ix2 r k) * wr (ix2 c k)) + b (ix1 c) := rfl

theorem combineRelu_apply {N K M : Nat} (agg x : (⟨2, ![N, K]⟩ : Shape).Idx → EReal) (wl wr : (⟨2, ![M, K]⟩ : Shape).Idx → EReal)
    (b : (⟨1, ![M]⟩ : Shape).Idx → EReal) (r : Fin N) (c : Fin M) :
    combineRelu agg x wl wr b (ix2 r c)
      = max (((∑ k : Fin K, agg (ix2 r k) * wl (ix2 c k)) + ∑ k : Fin K, x (ix2 r k) * wr (ix2 c k)) + b (ix1 c))
          (Ideal.ofBits .f32 0x00000000#32) := rfl

end Cert.Sage

end
-- ==== Proof.Payload.lean ====
/-
  What each kernel body stores, read at one entry of its output block.

  Both bodies load a block of aggregated rows, the same rows of the node features, the two weight matrices whole
  and the bias row, narrow the four matrices to bf16 (no change of value on the extended reals), multiply into zero
  accumulators, add, and add the bias row broadcast down the block; the first body ends with the maximum against
  the zero splat. At entry (r, c) that is the combine step of the block's rows: the two sums over the feature index
  of row r against weight row c, plus bias entry c.
-/
import proofs.«144770_j42176578846858_1_alg».proof.Proof.Gen.KernelIdeal.Skeleton
import proofs.«144770_j42176578846858_1_alg».proof.Proof.CombineSpec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.TcCoe Idealize.ShloMosaic.ValueIdx

/-! ## The first layer: 512 features into 128 columns

The product's record contracts axis 1 of the rows block with axis 1 of the weight matrix: at output (r, c) and
contraction index k its operand indices are (r, k) and (c, k). -/

theorem lhsA_0 (i : S1000x128.Idx) (q : dot_S1000x512_S128x512_S1000x128_1_1_0_0_n_n.contr.Idx) :
    (dot_S1000x512_S128x512_S1000x128_1_1_0_0_n_n.lhsIdx i q 0).val = (i 0).val := by
  unfold DotDims.lhsIdx
  rw [dif_neg (show ¬(0 : Fin S1000x512.rank) ∈ dot_S1000x512_S128x512_S1000x128_1_1_0_0_n_n.lhsBatch by decide), dif_pos (show (0 : Fin S1000x512.rank) ∈ dot_S1000x512_S128x512_S1000x128_1_1_0_0_n_n.lhsNonContracting by decide)]
  rfl
theorem lhsA_1 (i : S1000x128.Idx) (q : dot_S1000x512_S128x512_S1000x128_1_1_0_0_n_n.contr.Idx) :
    (dot_S1000x512_S128x512_S1000x128_1_1_0_0_n_n.lhsIdx i q 1).val = (q ⟨0, by decide⟩).val :=
  dot_S1000x512_S128x512_S1000x128_1_1_0_0_n_n.lhsIdx_val_of_single rfl i q
theorem rhsA_0 (i : S1000x128.Idx) (q : dot_S1000x512_S128x512_S1000x128_1_1_0_0_n_n.contr.Idx) :
    (dot_S1000x512_S128x512_S1000x128_1_1_0_0_n_n.rhsIdx i q 0).val = (i 1).val := by
  unfold DotDims.rhsIdx
  rw [dif_neg (show ¬(0 : Fin S128x512.rank) ∈ dot_S1000x512_S128x512_S1000x128_1_1_0_0_n_n.rhsBatch by decide), dif_pos (show (0 : Fin S128x512.rank) ∈ dot_S1000x512_S128x512_S1000x128_1_1_0_0_n_n.rhsNonContracting by decide)]
  rfl
theorem rhsA_1 (i : S1000x128.Idx) (q : dot_S1000x512_S128x512_S1000x128_1_1_0_0_n_n.contr.Idx) :
    (dot_S1000x512_S128x512_S1000x128_1_1_0_0_n_n.rhsIdx i q 1).val = (q ⟨0, by decide⟩).val :=
  dot_S1000x512_S128x512_S1000x128_1_1_0_0_n_n.rhsIdx_val_of_single rfl i q

/-- Into the zero accumulator the product at (r, c) is the sum over the 512 features of lhs[r,k]·rhs[c,k]. -/
theorem matmulA_apply {φ₁ φ₂ : FTy} (l : FVec Ideal S1000x512 φ₁) (r : FVec Ideal S128x512 φ₂) (i : S1000x128.Idx) :
    matmul dot_S1000x512_S128x512_S1000x128_1_1_0_0_n_n none l r (constant (F := Ideal) S1000x128 .f32 0x00000000#32) i
      = ∑ k : Fin 512, l (ix2 (i 0) k) * r (ix2 (i 1) k) := by
  simp only [matmul]
  rw [Ideal.matmul_constant_zero_apply, ← Equiv.sum_comp (ValueIdx.contrEquiv1 dot_S1000x512_S128x512_S1000x128_1_1_0_0_n_n 512 rfl rfl).symm]
  refine Finset.sum_congr rfl fun k _ => ?_
  have hk := ValueIdx.contrEquiv1_symm_val dot_S1000x512_S128x512_S1000x128_1_1_0_0_n_n 512 rfl rfl k
  have el : dot_S1000x512_S128x512_S1000x128_1_1_0_0_n_n.lhsIdx i ((ValueIdx.contrEquiv1 dot_S1000x512_S128x512_S1000x128_1_1_0_0_n_n 512 rfl rfl).symm k) = ix2 (i 0) k := funext fun a => Fin.ext (by
    match a with
    | ⟨0, _⟩ => exact lhsA_0 _ _
    | ⟨1, _⟩ => exact (lhsA_1 _ _).trans hk)
  have er : dot_S1000x512_S128x512_S1000x128_1_1_0_0_n_n.rhsIdx i ((ValueIdx.contrEquiv1 dot_S1000x512_S128x512_S1000x128_1_1_0_0_n_n 512 rfl rfl).symm k) = ix2 (i 1) k := funext fun a => Fin.ext (by
    match a with
    | ⟨0, _⟩ => exact rhsA_0 _ _
    | ⟨1, _⟩ => exact (rhsA_1 _ _).trans hk)
  rw [el, er]
  rfl

/-- The bias row broadcast down the 1000 rows of the block: entry (r, c) is the row's entry c. -/
theorem biasRowA_apply (b : FVec Ideal S1x128 .f32) (r : Fin 1000) (c : Fin 128) :
    broadcastTo S1000x128 b broadcasts_S1x128_S1000x128 (ix2 r c) = b (ix2 0 c) :=
  broadcastTo_apply b broadcasts_S1x128_S1000x128 (ix2 r c) (ix2 0 c) (fun a => match a with
    | ⟨0, _⟩ => by show 0 = if (1 : Nat) = 1 then 0 else _; rw [if_pos rfl]
    | ⟨1, _⟩ => by show c.val = if (128 : Nat) = 1 then 0 else c.val; rw [if_neg (by decide)])

/-- The first body's stored value at (r, c): the rectified combine of the loaded rows. -/
theorem payA_apply (x0 x1 : Vec Ideal S1000x512 .f32) (x2 x3 : Vec Ideal S128x512 .f32) (x4 : Vec Ideal S1x128 .f32)
    (r : Fin 1000) (c : Fin 128) :
    k0_pay1 (F := Ideal) x0 x1 x2 x3 x4 (ix2 r c)
      = max (((∑ k : Fin 512, x0 (ix2 r k) * x2 (ix2 c k)) + ∑ k : Fin 512, x1 (ix2 r k) * x3 (ix2 c k)) + x4 (ix2 0 c))
          (Ideal.ofBits .f32 0x00000000#32) := by
  unfold k0_pay1
  simp only [maximumf_apply, addf_apply, broadcast_apply, matmulA_apply, truncf_apply, shapeCast_self, biasRowA_apply]
  rfl

/-! ## The second layer: 128 features into 64 columns

The same shape of product, one size down: operand indices (r, k) and (c, k) over 128 features. -/

theorem lhsB_0 (i : S1000x64.Idx) (q : dot_S1000x128_S64x128_S1000x64_1_1_0_0_n_n.contr.Idx) :
    (dot_S1000x128_S64x128_S1000x64_1_1_0_0_n_n.lhsIdx i q 0).val = (i 0).val := by
  unfold DotDims.lhsIdx
  rw [dif_neg (show ¬(0 : Fin S1000x128.rank) ∈ dot_S1000x128_S64x128_S1000x64_1_1_0_0_n_n.lhsBatch by decide), dif_pos (show (0 : Fin S1000x128.rank) ∈ dot_S1000x128_S64x128_S1000x64_1_1_0_0_n_n.lhsNonContracting by decide)]
  rfl
theorem lhsB_1 (i : S1000x64.Idx) (q : dot_S1000x128_S64x128_S1000x64_1_1_0_0_n_n.contr.Idx) :
    (dot_S1000x128_S64x128_S1000x64_1_1_0_0_n_n.lhsIdx i q 1).val = (q ⟨0, by decide⟩).val :=
  dot_S1000x128_S64x128_S1000x64_1_1_0_0_n_n.lhsIdx_val_of_single rfl i q
theorem rhsB_0 (i : S1000x64.Idx) (q : dot_S1000x128_S64x128_S1000x64_1_1_0_0_n_n.contr.Idx) :
    (dot_S1000x128_S64x128_S1000x64_1_1_0_0_n_n.rhsIdx i q 0).val = (i 1).val := by
  unfold DotDims.rhsIdx
  rw [dif_neg (show ¬(0 : Fin S64x128.rank) ∈ dot_S1000x128_S64x128_S1000x64_1_1_0_0_n_n.rhsBatch by decide), dif_pos (show (0 : Fin S64x128.rank) ∈ dot_S1000x128_S64x128_S1000x64_1_1_0_0_n_n.rhsNonContracting by decide)]
  rfl
theorem rhsB_1 (i : S1000x64.Idx) (q : dot_S1000x128_S64x128_S1000x64_1_1_0_0_n_n.contr.Idx) :
    (dot_S1000x128_S64x128_S1000x64_1_1_0_0_n_n.rhsIdx i q 1).val = (q ⟨0, by decide⟩).val :=
  dot_S1000x128_S64x128_S1000x64_1_1_0_0_n_n.rhsIdx_val_of_single rfl i q

/-- Into the zero accumulator the product at (r, c) is the sum over the 128 features of lhs[r,k]·rhs[c,k]. -/
theorem matmulB_apply {φ₁ φ₂ : FTy} (l : FVec Ideal S1000x128 φ₁) (r : FVec Ideal S64x128 φ₂) (i : S1000x64.Idx) :
    matmul dot_S1000x128_S64x128_S1000x64_1_1_0_0_n_n none l r (constant (F := Ideal) S1000x64 .f32 0x00000000#32) i
      = ∑ k : Fin 128, l (ix2 (i 0) k) * r (ix2 (i 1) k) := by
  simp only [matmul]
  rw [Ideal.matmul_constant_zero_apply, ← Equiv.sum_comp (ValueIdx.contrEquiv1 dot_S1000x128_S64x128_S1000x64_1_1_0_0_n_n 128 rfl rfl).symm]
  refine Finset.sum_congr rfl fun k _ => ?_
  have hk := ValueIdx.contrEquiv1_symm_val dot_S1000x128_S64x128_S1000x64_1_1_0_0_n_n 128 rfl rfl k
  have el : dot_S1000x128_S64x128_S1000x64_1_1_0_0_n_n.lhsIdx i ((ValueIdx.contrEquiv1 dot_S1000x128_S64x128_S1000x64_1_1_0_0_n_n 128 rfl rfl).symm k) = ix2 (i 0) k := funext fun a => Fin.ext (by
    match a with
    | ⟨0, _⟩ => exact lhsB_0 _ _
    | ⟨1, _⟩ => exact (lhsB_1 _ _).trans hk)
  have er : dot_S1000x128_S64x128_S1000x64_1_1_0_0_n_n.rhsIdx i ((ValueIdx.contrEquiv1 dot_S1000x128_S64x128_S1000x64_1_1_0_0_n_n 128 rfl rfl).symm k) = ix2 (i 1) k := funext fun a => Fin.ext (by
    match a with
    | ⟨0, _⟩ => exact rhsB_0 _ _
    | ⟨1, _⟩ => exact (rhsB_1 _ _).trans hk)
  rw [el, er]
  rfl

/-- The bias row broadcast down the 1000 rows of the block: entry (r, c) is the row's entry c. -/
theorem biasRowB_apply (b : FVec Ideal S1x64 .f32) (r : Fin 1000) (c : Fin 64) :
    broadcastTo S1000x64 b broadcasts_S1x64_S1000x64 (ix2 r c) = b (ix2 0 c) :=
  broadcastTo_apply b broadcasts_S1x64_S1000x64 (ix2 r c) (ix2 0 c) (fun a => match a with
    | ⟨0, _⟩ => by show 0 = if (1 : Nat) = 1 then 0 else _; rw [if_pos rfl]
    | ⟨1, _⟩ => by show c.val = if (64 : Nat) = 1 then 0 else c.val; rw [if_neg (by decide)])

/-- The second body's stored value at (r, c): the combine of the loaded rows, no rectifier. -/
theorem payB_apply (x0 x1 : Vec Ideal S1000x128 .f32) (x2 x3 : Vec Ideal S64x128 .f32) (x4 : Vec Ideal S1x64 .f32)
    (r : Fin 1000) (c : Fin 64) :
    k1_pay1 (F := Ideal) x0 x1 x2 x3 x4 (ix2 r c)
      = ((∑ k : Fin 128, x0 (ix2 r k) * x2 (ix2 c k)) + ∑ k : Fin 128, x1 (ix2 r k) * x3 (ix2 c k)) + x4 (ix2 0 c) := by
  unfold k1_pay1
  simp only [addf_apply, matmulB_apply, truncf_apply, shapeCast_self, biasRowB_apply]

end Cert.KernelIdeal.Pay

end
-- ==== Proof.BlocksA.lean ====
/-
  The first kernel region's output array, whole: the rectified combine of the arrays the region finds.

  The grid has ten points; point t loads rows 1000·t … 1000·t + 999 of the aggregated features and of the node
  features, both weight matrices and the bias row whole, and writes back rows 1000·t … of the output. Entry (r, c)
  of the written block depends only on row 1000·t + r of the two feature arrays, on weight rows c and on bias
  entry c: it is the rectified combine of the WHOLE arrays at (1000·t + r, c). The ten blocks tile the 10000
  rows, so the array ends as that one function.
-/
import proofs.«144770_j42176578846858_1_alg».proof.Proof.Gen.KernelIdeal.Frame
import proofs.«144770_j42176578846858_1_alg».proof.Proof.Payload
import Idealize.ShloMosaic.Lib.Pipeline.Value
import Idealize.ShloMosaic.Lib.ValueIdx

set_option maxRecDepth 16384

noncomputable section

namespace Cert.KernelIdeal.BlocksA

open Cert.KernelIdeal Cert.KernelIdeal.Gen Idealize.ShloMosaic Idealize.ShloMosaic.TcCoe Idealize.ShloMosaic.ValueIdx
open Idealize.SL.Sem
open Idealize.ShloMosaic.Pipeline (Dat Cfg Window)

-- The buffer contents the region is entered with (any: the region's value is a function of them).
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the two feature windows move down the rows with the output window,
    the weights and the bias stay at block (0, 0), and the output's row block is one of 0 … 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block 0 … 9 is some point's. -/
theorem idx_onto : ∀ q : Fin 10, ∃ t : Fin cfg0.N, win0_5.index t (0 : Fin 2) = q.val :=
  (by decide +kernel : ∀ q : Fin 10, ∃ t : Fin grid0.N, win0_5.index t (0 : Fin 2) = q.val)

/-- The array row that row r of point t's blocks is. -/
def rowOf (t : Fin cfg0.N) (r : Fin 1000) : Fin 10000 :=
  ⟨win0_5.index t (0 : Fin 2) * 1000 + r.val, by
    have h := (idx_facts t).2.2.2.2.2.2.2.2.2.2.1
    have hr := r.isLt
    omega⟩

/-- One entry of the stored block from the loaded blocks, when each loaded block is the matching piece of a whole
    array: the rectified combine of the whole arrays at the entry's array row. -/
theorem entry_eq (x0 x1 : Vec Ideal S1000x512 .f32) (x2 x3 : Vec Ideal S128x512 .f32) (x4 : Vec Ideal S1x128 .f32)
    (A X : S10000x512.Idx → EReal) (WL WR : S128x512.Idx → EReal) (b : S128.Idx → EReal)
    (p : Fin 1000) (q : Fin 128) (r : Fin 10000)
    (h0 : ∀ k : Fin 512, x0 (ix2 p k) = A (ix2 r k)) (h1 : ∀ k : Fin 512, x1 (ix2 p k) = X (ix2 r k))
    (h2 : ∀ k : Fin 512, x2 (ix2 q k) = WL (ix2 q k)) (h3 : ∀ k : Fin 512, x3 (ix2 q k) = WR (ix2 q k))
    (h4 : x4 (ix2 0 q) = b (ix1 q)) :
    k0_pay1 (F := Ideal) x0 x1 x2 x3 x4 (ix2 p q) = Sage.combineRelu A X WL WR b (ix2 r q) := by
  rw [Pay.payA_apply, Sage.combineRelu_apply]
  simp only [h0, h1, h2, h3, h4]

/-- Where the blocks sit in their arrays: a block's coordinate is its index times its size plus the coordinate
    inside the block. -/
theorem emb_out (t : Fin cfg0.N) (p : Fin 1000) (q : Fin 128) :
    ((cfg0.win 5).blk t).view.emb (ix2 p q) = ix2 (rowOf t p) q := by
  obtain ⟨e0, e1, e2, e3, e4, e5, e6, e7, e8, e9, e10, e11⟩ := idx_facts t
  funext a; apply Fin.ext
  match a with
  | ⟨0, _⟩ => show win0_5.index t (0 : Fin 2) * 1000 + 1 * p.val = win0_5.index t (0 : Fin 2) * 1000 + p.val; omega
  | ⟨1, _⟩ => show win0_5.index t (1 : Fin 2) * 128 + 1 * q.val = q.val; omega
theorem emb_agg (t : Fin cfg0.N) (p : Fin 1000) (k : Fin 512) :
    ((cfg0.win 0).blk t).view.emb (ix2 p k) = ix2 (rowOf t p) k := by
  obtain ⟨e0, e1, e2, e3, e4, e5, e6, e7, e8, e9, e10, e11⟩ := idx_facts t
  funext a; apply Fin.ext
  match a with
  | ⟨0, _⟩ => show win0_0.index t (0 : Fin 2) * 1000 + 1 * p.val = win0_5.index t (0 : Fin 2) * 1000 + p.val; omega
  | ⟨1, _⟩ => show win0_0.index t (1 : Fin 2) * 512 + 1 * k.val = k.val; omega
theorem emb_x (t : Fin cfg0.N) (p : Fin 1000) (k : Fin 512) :
    ((cfg0.win 1).blk t).view.emb (ix2 p k) = ix2 (rowOf t p) k := by
  obtain ⟨e0, e1, e2, e3, e4, e5, e6, e7, e8, e9, e10, e11⟩ := idx_facts t
  funext a; apply Fin.ext
  match a with
  | ⟨0, _⟩ => show win0_1.index t (0 : Fin 2) * 1000 + 1 * p.val = win0_5.index t (0 : Fin 2) * 1000 + p.val; omega
  | ⟨1, _⟩ => show win0_1.index t (1 : Fin 2) * 512 + 1 * k.val = k.val; omega
theorem emb_wl (t : Fin cfg0.N) (q : Fin 128) (k : Fin 512) :
    ((cfg0.win 2).blk t).view.emb (ix2 q k) = ix2 q k := by
  obtain ⟨e0, e1, e2, e3, e4, e5, e6, e7, e8, e9, e10, e11⟩ := idx_facts t
  funext a; apply Fin.ext
  match a with
  | ⟨0, _⟩ => show win0_2.index t (0 : Fin 2) * 128 + 1 * q.val = q.val; omega
  | ⟨1, _⟩ => show win0_2.index t (1 : Fin 2) * 512 + 1 * k.val = k.val; omega
theorem emb_wr (t : Fin cfg0.N) (q : Fin 128) (k : Fin 512) :
    ((cfg0.win 3).blk t).view.emb (ix2 q k) = ix2 q k := by
  obtain ⟨e0, e1, e2, e3, e4, e5, e6, e7, e8, e9, e10, e11⟩ := idx_facts t
  funext a; apply Fin.ext
  match a with
  | ⟨0, _⟩ => show win0_3.index t (0 : Fin 2) * 128 + 1 * q.val = q.val; omega
  | ⟨1, _⟩ => show win0_3.index t (1 : Fin 2) * 512 + 1 * k.val = k.val; omega
theorem emb_b (t : Fin cfg0.N) (q : Fin 128) :
    ((cfg0.win 4).blk t).view.emb (ix2 (0 : Fin 1) q) = ix2 (0 : Fin 1) q := by
  obtain ⟨e0, e1, e2, e3, e4, e5, e6, e7, e8, e9, e10, e11⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- WHAT POINT t WRITES BACK is block t of the rectified combine of the arrays the region finds. The bias is
    taken as the one-axis array `b` whose entries the region's bias row holds. -/
theorem flushed_eq (c : Dev nD) (t : Fin cfg0.N) (b : S128.Idx → EReal)
    (hb : ∀ q : Fin 128, V c main_v23 (ix2 (0 : Fin 1) q) = b (ix1 q)) :
    (dat0 V c).flushed 5 t = ((cfg0.win 5).blk t).view.read (Elt Ideal)
      (Sage.combineRelu (V c main_v22) (V c main_arg0) (V c main_arg2) (V c main_arg3) b) := by
  show (cfg0.win 5).cut (grid0.coords t) ((dat0 V c).after 5 t) = _
  rw [after0_5]
  unfold out0_5
  rw [View.canon_unit_zero hz]
  simp only [View.ld_unit_zero (S := S1000x512) hz, View.ld_unit_zero (S := S128x512) hz, View.ld_unit_zero (S := S1x128) hz]
  funext j
  obtain ⟨p, q, rfl⟩ : ∃ (p : Fin 1000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Sage.combineRelu (V c main_v22) (V c main_arg0) (V c main_arg2) (V c main_arg3) b (((cfg0.win 5).blk t).view.emb (ix2 p q))
  rw [emb_out t p q]
  refine entry_eq (iblk0 V c 0 t) (iblk0 V c 1 t) (iblk0 V c 2 t) (iblk0 V c 3 t) (iblk0 V c 4 t)
    (V c main_v22) (V c main_arg0) (V c main_arg2) (V c main_arg3) b p q (rowOf t p) ?_ ?_ ?_ ?_ ?_
  · intro k
    show V c main_v22 (((cfg0.win 0).blk t).view.emb (ix2 p k)) = _
    rw [emb_agg t p k]
  · intro k
    show V c main_arg0 (((cfg0.win 1).blk t).view.emb (ix2 p k)) = _
    rw [emb_x t p k]
  · intro k
    show V c main_arg2 (((cfg0.win 2).blk t).view.emb (ix2 q k)) = _
    rw [emb_wl t q k]
  · intro k
    show V c main_arg3 (((cfg0.win 3).blk t).view.emb (ix2 q k)) = _
    rw [emb_wr t q k]
  · show V c main_v23 (((cfg0.win 4).blk t).view.emb (ix2 (0 : Fin 1) q)) = _
    rw [emb_b t q]
    exact hb q

/-- An index of the output array is in point t's block iff each coordinate is in the block's range on its axis. -/
theorem mem_blk (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v24).slice (win0_5.rect t)).set ↔ _
  rw [View.set_slice_whole, Rect.mem_set_unit]
  exact Iff.rfl

/-- The ten row blocks cover the array: row i₀ is in the block of the point whose row block is i₀ / 1000. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto ⟨(i 0).val / 1000, by omega⟩
  have ht' : win0_5.index t (0 : Fin 2) = (i 0).val / 1000 := ht
  obtain ⟨e0, e1, e2, e3, e4, e5, e6, e7, e8, e9, e10, e11⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- THE OUTPUT ARRAY after the region: the rectified combine of the arrays it was entered with. -/
theorem final (c : Dev nD) (b : S128.Idx → EReal) (hb : ∀ q : Fin 128, V c main_v23 (ix2 (0 : Fin 1) q) = b (ix1 q)) :
    (dat0 V c).arrAt 5 cfg0.N = Sage.combineRelu (V c main_v22) (V c main_arg0) (V c main_arg2) (V c main_arg3) b :=
  (dat0 V c).arrAt_eq_of_cover 5 _ (fun t _ => flushed_eq V c t b hb) cover

end Cert.KernelIdeal.BlocksA

end
-- ==== Proof.BlocksB.lean ====
/-
  The second kernel region's output array, whole: the combine of the arrays the region finds.

  Again ten grid points; point t loads rows 1000·t … 1000·t + 999 of the second aggregate and of the hidden
  features (128 wide), both second-layer weight matrices and the bias row whole, and writes back the same rows of
  the 64-column output. Entry (r, c) of the written block is the combine of the WHOLE arrays at (1000·t + r, c);
  the ten blocks tile the 10000 rows, so the array ends as that one function. No rectifier follows.
-/
import proofs.«144770_j42176578846858_1_alg».proof.Proof.Gen.KernelIdeal.Frame
import proofs.«144770_j42176578846858_1_alg».proof.Proof.Payload
import Idealize.ShloMosaic.Lib.Pipeline.Value
import Idealize.ShloMosaic.Lib.ValueIdx

set_option maxRecDepth 16384

noncomputable section

namespace Cert.KernelIdeal.BlocksB

open Cert.KernelIdeal Cert.KernelIdeal.Gen Idealize.ShloMosaic Idealize.ShloMosaic.TcCoe Idealize.ShloMosaic.ValueIdx
open Idealize.SL.Sem
open Idealize.ShloMosaic.Pipeline (Dat Cfg Window)

-- The buffer contents the region is entered with (any: the region's value is a function of them).
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the aggregate's and the hidden features' windows move down the rows
    with the output window, the weights and the bias stay at block (0, 0), the output's row block is one of 0 … 9. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block 0 … 9 is some point's. -/
theorem idx_onto : ∀ q : Fin 10, ∃ t : Fin cfg1.N, win1_5.index t (0 : Fin 2) = q.val :=
  (by decide +kernel : ∀ q : Fin 10, ∃ t : Fin grid1.N, win1_5.index t (0 : Fin 2) = q.val)

/-- The array row that row r of point t's blocks is. -/
def rowOf (t : Fin cfg1.N) (r : Fin 1000) : Fin 10000 :=
  ⟨win1_5.index t (0 : Fin 2) * 1000 + r.val, by
    have h := (idx_facts t).2.2.2.2.2.2.2.2.2.2.1
    have hr := r.isLt
    omega⟩

/-- One entry of the stored block from the loaded blocks, when each loaded block is the matching piece of a whole
    array: the combine of the whole arrays at the entry's array row. -/
theorem entry_eq (x0 x1 : Vec Ideal S1000x128 .f32) (x2 x3 : Vec Ideal S64x128 .f32) (x4 : Vec Ideal S1x64 .f32)
    (A H : S10000x128.Idx → EReal) (WL WR : S64x128.Idx → EReal) (b : S64.Idx → EReal)
    (p : Fin 1000) (q : Fin 64) (r : Fin 10000)
    (h0 : ∀ k : Fin 128, x0 (ix2 p k) = A (ix2 r k)) (h1 : ∀ k : Fin 128, x1 (ix2 p k) = H (ix2 r k))
    (h2 : ∀ k : Fin 128, x2 (ix2 q k) = WL (ix2 q k)) (h3 : ∀ k : Fin 128, x3 (ix2 q k) = WR (ix2 q k))
    (h4 : x4 (ix2 0 q) = b (ix1 q)) :
    k1_pay1 (F := Ideal) x0 x1 x2 x3 x4 (ix2 p q) = Sage.combine A H WL WR b (ix2 r q) := by
  rw [Pay.payB_apply, Sage.combine_apply]
  simp only [h0, h1, h2, h3, h4]

/-- Where the blocks sit in their arrays: a block's coordinate is its index times its size plus the coordinate
    inside the block. -/
theorem emb_out (t : Fin cfg1.N) (p : Fin 1000) (q : Fin 64) :
    ((cfg1.win 5).blk t).view.emb (ix2 p q) = ix2 (rowOf t p) q := by
  obtain ⟨e0, e1, e2, e3, e4, e5, e6, e7, e8, e9, e10, e11⟩ := idx_facts t
  funext a; apply Fin.ext
  match a with
  | ⟨0, _⟩ => show win1_5.index t (0 : Fin 2) * 1000 + 1 * p.val = win1_5.index t (0 : Fin 2) * 1000 + p.val; omega
  | ⟨1, _⟩ => show win1_5.index t (1 : Fin 2) * 64 + 1 * q.val = q.val; omega
theorem emb_agg (t : Fin cfg1.N) (p : Fin 1000) (k : Fin 128) :
    ((cfg1.win 0).blk t).view.emb (ix2 p k) = ix2 (rowOf t p) k := by
  obtain ⟨e0, e1, e2, e3, e4, e5, e6, e7, e8, e9, e10, e11⟩ := idx_facts t
  funext a; apply Fin.ext
  match a with
  | ⟨0, _⟩ => show win1_0.index t (0 : Fin 2) * 1000 + 1 * p.val = win1_5.index t (0 : Fin 2) * 1000 + p.val; omega
  | ⟨1, _⟩ => show win1_0.index t (1 : Fin 2) * 128 + 1 * k.val = k.val; omega
theorem emb_h (t : Fin cfg1.N) (p : Fin 1000) (k : Fin 128) :
    ((cfg1.win 1).blk t).view.emb (ix2 p k) = ix2 (rowOf t p) k := by
  obtain ⟨e0, e1, e2, e3, e4, e5, e6, e7, e8, e9, e10, e11⟩ := idx_facts t
  funext a; apply Fin.ext
  match a with
  | ⟨0, _⟩ => show win1_1.index t (0 : Fin 2) * 1000 + 1 * p.val = win1_5.index t (0 : Fin 2) * 1000 + p.val; omega
  | ⟨1, _⟩ => show win1_1.index t (1 : Fin 2) * 128 + 1 * k.val = k.val; omega
theorem emb_wl (t : Fin cfg1.N) (q : Fin 64) (k : Fin 128) :
    ((cfg1.win 2).blk t).view.emb (ix2 q k) = ix2 q k := by
  obtain ⟨e0, e1, e2, e3, e4, e5, e6, e7, e8, e9, e10, e11⟩ := idx_facts t
  funext a; apply Fin.ext
  match a with
  | ⟨0, _⟩ => show win1_2.index t (0 : Fin 2) * 64 + 1 * q.val = q.val; omega
  | ⟨1, _⟩ => show win1_2.index t (1 : Fin 2) * 128 + 1 * k.val = k.val; omega
theorem emb_wr (t : Fin cfg1.N) (q : Fin 64) (k : Fin 128) :
    ((cfg1.win 3).blk t).view.emb (ix2 q k) = ix2 q k := by
  obtain ⟨e0, e1, e2, e3, e4, e5, e6, e7, e8, e9, e10, e11⟩ := idx_facts t
  funext a; apply Fin.ext
  match a with
  | ⟨0, _⟩ => show win1_3.index t (0 : Fin 2) * 64 + 1 * q.val = q.val; omega
  | ⟨1, _⟩ => show win1_3.index t (1 : Fin 2) * 128 + 1 * k.val = k.val; omega
theorem emb_b (t : Fin cfg1.N) (q : Fin 64) :
    ((cfg1.win 4).blk t).view.emb (ix2 (0 : Fin 1) q) = ix2 (0 : Fin 1) q := by
  obtain ⟨e0, e1, e2, e3, e4, e5, e6, e7, e8, e9, e10, e11⟩ := idx_facts t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- WHAT POINT t WRITES BACK is block t of the combine of the arrays the region finds. The bias is taken as the
    one-axis array `b` whose entries the region's bias row holds. -/
theorem flushed_eq (c : Dev nD) (t : Fin cfg1.N) (b : S64.Idx → EReal)
    (hb : ∀ q : Fin 64, V c main_v44 (ix2 (0 : Fin 1) q) = b (ix1 q)) :
    (dat1 V c).flushed 5 t = ((cfg1.win 5).blk t).view.read (Elt Ideal)
      (Sage.combine (V c main_v43) (V c main_v24) (V c main_arg5) (V c main_arg6) b) := by
  show (cfg1.win 5).cut (grid1.coords t) ((dat1 V c).after 5 t) = _
  rw [after1_5]
  unfold out1_5
  rw [View.canon_unit_zero hz]
  simp only [View.ld_unit_zero (S := S1000x128) hz, View.ld_unit_zero (S := S64x128) hz, View.ld_unit_zero (S := S1x64) hz]
  funext j
  obtain ⟨p, q, rfl⟩ : ∃ (p : Fin 1000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Sage.combine (V c main_v43) (V c main_v24) (V c main_arg5) (V c main_arg6) b (((cfg1.win 5).blk t).view.emb (ix2 p q))
  rw [emb_out t p q]
  refine entry_eq (iblk1 V c 0 t) (iblk1 V c 1 t) (iblk1 V c 2 t) (iblk1 V c 3 t) (iblk1 V c 4 t)
    (V c main_v43) (V c main_v24) (V c main_arg5) (V c main_arg6) b p q (rowOf t p) ?_ ?_ ?_ ?_ ?_
  · intro k
    show V c main_v43 (((cfg1.win 0).blk t).view.emb (ix2 p k)) = _
    rw [emb_agg t p k]
  · intro k
    show V c main_v24 (((cfg1.win 1).blk t).view.emb (ix2 p k)) = _
    rw [emb_h t p k]
  · intro k
    show V c main_arg5 (((cfg1.win 2).blk t).view.emb (ix2 q k)) = _
    rw [emb_wl t q k]
  · intro k
    show V c main_arg6 (((cfg1.win 3).blk t).view.emb (ix2 q k)) = _
    rw [emb_wr t q k]
  · show V c main_v44 (((cfg1.win 4).blk t).view.emb (ix2 (0 : Fin 1) q)) = _
    rw [emb_b t q]
    exact hb q

/-- An index of the output array is in point t's block iff each coordinate is in the block's range on its axis. -/
theorem mem_blk (t : Fin cfg1.N) (i : S10000x64.Idx) :
    i ∈ ((cfg1.win 5).blk t).view.set ↔ ∀ a : Fin 2, win1_5.index t a * S1000x64.size a ≤ (i a).val ∧ (i a).val < win1_5.index t a * S1000x64.size a + S1000x64.size a := by
  show i ∈ ((View.whole main_v45).slice (win1_5.rect t)).set ↔ _
  rw [View.set_slice_whole, Rect.mem_set_unit]
  exact Iff.rfl

/-- The ten row blocks cover the array: row i₀ is in the block of the point whose row block is i₀ / 1000. -/
theorem cover (i : S10000x64.Idx) : ∃ t : Fin cfg1.N, (cfg1.win 5).flush t = true ∧ i ∈ ((cfg1.win 5).blk t).view.set := by
  have hi0 : (i 0).val < 10000 := (i 0).isLt
  have hi1 : (i 1).val < 64 := (i 1).isLt
  obtain ⟨t, ht⟩ := idx_onto ⟨(i 0).val / 1000, by omega⟩
  have ht' : win1_5.index t (0 : Fin 2) = (i 0).val / 1000 := ht
  obtain ⟨e0, e1, e2, e3, e4, e5, e6, e7, e8, e9, e10, e11⟩ := idx_facts t
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 64 ≤ (i 1).val ∧ (i 1).val < win1_5.index t (1 : Fin 2) * 64 + 64; omega

/-- THE OUTPUT ARRAY after the region: the combine of the arrays it was entered with. -/
theorem final (c : Dev nD) (b : S64.Idx → EReal) (hb : ∀ q : Fin 64, V c main_v44 (ix2 (0 : Fin 1) q) = b (ix1 q)) :
    (dat1 V c).arrAt 5 cfg1.N = Sage.combine (V c main_v43) (V c main_v24) (V c main_arg5) (V c main_arg6) b :=
  (dat1 V c).arrAt_eq_of_cover 5 _ (fun t _ => flushed_eq V c t b hb) cover

end Cert.KernelIdeal.BlocksB

end
-- ==== Proof.Network.lean ====
/-
  The network as one function of its eight inputs.

  Both programs aggregate on the host in the same way: the edge array's two rows are the source and the
  destination node of each edge; a feature array is gathered at the sources (a negative source first moved up by
  the node count), the gathered rows are summed into their destination rows, and each row is divided by the
  larger of its number of incoming edges and one. That aggregate is applied twice, to the 512-wide input features
  and to the 128-wide hidden features, and each time a combine step follows. The aggregate is carried here as ONE
  function of (features, sources, destinations) and never opened: the two programs agree on what goes into it.
-/
import proofs.«144770_j42176578846858_1_alg».proof.Proof.Gen.KernelIdeal
import proofs.«144770_j42176578846858_1_alg».proof.Proof.CombineSpec

noncomputable section

namespace Cert.KernelIdeal.Net

open Cert.KernelIdeal Cert.KernelIdeal.Gen Idealize.ShloMosaic Idealize.ShloMosaic.TcCoe

variable {F : FTy → Type} [FloatOps F]

/-- The source node of each edge: row 0 of the edge array. -/
def src (ei : (⟨S2x160000, .i32⟩ : BufTy).Contents (Elt F)) : (⟨S160000, .i32⟩ : BufTy).Contents (Elt F) :=
  shapeCast S160000 (extractStridedSlice S1x160000 ![0, 0] ei slices_S2x160000_S1x160000_0_0) shapeCasts_S1x160000_S160000

/-- The destination node of each edge: row 1 of the edge array. -/
def dst (ei : (⟨S2x160000, .i32⟩ : BufTy).Contents (Elt F)) : (⟨S160000, .i32⟩ : BufTy).Contents (Elt F) :=
  shapeCast S160000 (extractStridedSlice S1x160000 ![1, 0] ei slices_S2x160000_S1x160000_1_0) shapeCasts_S1x160000_S160000

/-- The mean aggregate of 512-wide features over incoming edges. -/
def mean512 (x : (⟨S10000x512, .f32⟩ : BufTy).Contents (Elt F)) (s d : (⟨S160000, .i32⟩ : BufTy).Contents (Elt F)) :
    (⟨S10000x512, .f32⟩ : BufTy).Contents (Elt F) :=
  Host.divf
    (Host.scatterAdd scatter_S10000x512_S160000x1_S160000x512_1_0_0_1
      (broadcastInDim S10000x512 ![] bcast_S_S10000x512 (constant S_ .f32 0x00000000#32))
      (broadcastInDim S160000x1 ![0] bcast_S160000_S160000x1_0 d)
      (Host.gather gather_S10000x512_S160000x1_S160000x512_1_0_n_n_0_1_1512 x
        (broadcastInDim S160000x1 ![0] bcast_S160000_S160000x1_0
          (select (cmpi .slt s (broadcastInDim S160000 ![] bcast_S_S160000 (constantI S_ 32 0#32)))
            (addi s (broadcastInDim S160000 ![] bcast_S_S160000 (constantI S_ 32 10000#32))) s))))
    (broadcastInDim S10000x512 ![0, 1] bcast_S10000x1_S10000x512_0_1
      (broadcastInDim S10000x1 ![0] bcast_S10000_S10000x1_0
        (maximumf
          (Host.scatterAdd scatter_S10000_S160000x1_S160000_n_0_0_1
            (broadcastInDim S10000 ![] bcast_S_S10000 (constant S_ .f32 0x00000000#32))
            (broadcastInDim S160000x1 ![0] bcast_S160000_S160000x1_0 d)
            (broadcastInDim S160000 ![] bcast_S_S160000 (constant S_ .f32 0x3F800000#32)))
          (broadcastInDim S10000 ![] bcast_S_S10000 (constant S_ .f32 0x3F800000#32)))))

/-- The mean aggregate of 128-wide features over incoming edges. -/
def mean128 (h : (⟨S10000x128, .f32⟩ : BufTy).Contents (Elt F)) (s d : (⟨S160000, .i32⟩ : BufTy).Contents (Elt F)) :
    (⟨S10000x128, .f32⟩ : BufTy).Contents (Elt F) :=
  Host.divf
    (Host.scatterAdd scatter_S10000x128_S160000x1_S160000x128_1_0_0_1
      (broadcastInDim S10000x128 ![] bcast_S_S10000x128 (constant S_ .f32 0x00000000#32))
      (broadcastInDim S160000x1 ![0] bcast_S160000_S160000x1_0 d)
      (Host.gather gather_S10000x128_S160000x1_S160000x128_1_0_n_n_0_1_1128 h
        (broadcastInDim S160000x1 ![0] bcast_S160000_S160000x1_0
          (select (cmpi .slt s (broadcastInDim S160000 ![] bcast_S_S160000 (constantI S_ 32 0#32)))
            (addi s (broadcastInDim S160000 ![] bcast_S_S160000 (constantI S_ 32 10000#32))) s))))
    (broadcastInDim S10000x128 ![0, 1] bcast_S10000x1_S10000x128_0_1
      (broadcastInDim S10000x1 ![0] bcast_S10000_S10000x1_0
        (maximumf
          (Host.scatterAdd scatter_S10000_S160000x1_S160000_n_0_0_1
            (broadcastInDim S10000 ![] bcast_S_S10000 (constant S_ .f32 0x00000000#32))
            (broadcastInDim S160000x1 ![0] bcast_S160000_S160000x1_0 d)
            (broadcastInDim S160000 ![] bcast_S_S160000 (constant S_ .f32 0x3F800000#32)))
          (broadcastInDim S10000 ![] bcast_S_S10000 (constant S_ .f32 0x3F800000#32)))))

/-- The hidden features: the rectified combine of the aggregated and the own input features. -/
def hidden (x : (⟨S10000x512, .f32⟩ : BufTy).Contents (Elt Ideal)) (ei : (⟨S2x160000, .i32⟩ : BufTy).Contents (Elt Ideal))
    (w1l w1r : (⟨S128x512, .f32⟩ : BufTy).Contents (Elt Ideal)) (b1 : (⟨S128, .f32⟩ : BufTy).Contents (Elt Ideal)) :
    (⟨S10000x128, .f32⟩ : BufTy).Contents (Elt Ideal) :=
  Sage.combineRelu (mean512 x (src ei) (dst ei)) x w1l w1r b1

/-- The result: the combine of the aggregated and the own hidden features. -/
def output (x : (⟨S10000x512, .f32⟩ : BufTy).Contents (Elt Ideal)) (ei : (⟨S2x160000, .i32⟩ : BufTy).Contents (Elt Ideal))
    (w1l w1r : (⟨S128x512, .f32⟩ : BufTy).Contents (Elt Ideal)) (b1 : (⟨S128, .f32⟩ : BufTy).Contents (Elt Ideal))
    (w2l w2r : (⟨S64x128, .f32⟩ : BufTy).Contents (Elt Ideal)) (b2 : (⟨S64, .f32⟩ : BufTy).Contents (Elt Ideal)) :
    (⟨S10000x64, .f32⟩ : BufTy).Contents (Elt Ideal) :=
  Sage.combine (mean128 (hidden x ei w1l w1r b1) (src ei) (dst ei)) (hidden x ei w1l w1r b1) w2l w2r b2

end Cert.KernelIdeal.Net

end
-- ==== Proof.KernelValue.lean ====
/-
  The idealized kernel's result as the network function of its arguments.

  @main is: a stretch of host operations (the first aggregate, the bias row), the first kernel region, a second
  stretch (the second aggregate over the region's output, the second bias row), the second kernel region. The run
  leaves the result buffer at the last boundary's contents; walking the boundaries back,
    result  = combine of (second aggregate of h, h, second-layer weights, bias)        (second region, whole array)
    h       = rectified combine of (first aggregate of x, x, first-layer weights, bias) (first region, whole array)
  and every stretch's buffers are its operations' composed terms of what it was entered with: the aggregates are
  the shared mean aggregate of the features and the edge array's two rows, the weights and features are the
  arguments themselves, and each bias row is its one-axis argument with a unit axis put in front.
-/
import proofs.«144770_j42176578846858_1_alg».proof.Proof.Gen.KernelIdeal.Frame
import proofs.«144770_j42176578846858_1_alg».proof.Proof.KernelRun
import proofs.«144770_j42176578846858_1_alg».proof.Proof.BlocksA
import proofs.«144770_j42176578846858_1_alg».proof.Proof.BlocksB
import proofs.«144770_j42176578846858_1_alg».proof.Proof.Network
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ) (ρ : Dev nD → PrngReg)

/-! ## The first stretch: what the first region is entered with -/

set_option maxHeartbeats 8000000 in
/-- The aggregated features: the mean aggregate of the input features along the edges. -/
theorem V1_agg (c : Dev nD) :
    V1 m ρ c main_v22 = Net.mean512 (m ((c : Thread nD τ).loc main_arg0)) (Net.src (m ((c : Thread nD τ).loc main_arg1))) (Net.dst (m ((c : Thread nD τ).loc main_arg1))) := by
  show StableHlo.after hostOps0 (W0 m ρ c) (Proc.devRef .tc main_v22) = _
  after_results_simp
  rfl

theorem V1_x (c : Dev nD) : V1 m ρ c main_arg0 = (m ((c : Thread nD τ).loc main_arg0)) := by
  show StableHlo.after hostOps0 (W0 m ρ c) (Proc.devRef .tc main_arg0) = _
  after_results
theorem V1_wl (c : Dev nD) : V1 m ρ c main_arg2 = (m ((c : Thread nD τ).loc main_arg2)) := by
  show StableHlo.after hostOps0 (W0 m ρ c) (Proc.devRef .tc main_arg2) = _
  after_results
theorem V1_wr (c : Dev nD) : V1 m ρ c main_arg3 = (m ((c : Thread nD τ).loc main_arg3)) := by
  show StableHlo.after hostOps0 (W0 m ρ c) (Proc.devRef .tc main_arg3) = _
  after_results

/-- A one-axis array with a unit axis put in front, read in its one row: the array's entry. -/
theorem row128 (b : S128.Idx → EReal) (q : Fin 128) :
    shapeCast S1x128 b shapeCasts_S128_S1x128 (ix2 (0 : Fin 1) q) = b (ix1 q) :=
  (shapeCast_addUnit_apply ![128] b shapeCasts_S128_S1x128 (ix2 (0 : Fin 1) q)).trans
    (congrArg b (funext fun a => match a with | ⟨0, _⟩ => rfl))
theorem row64 (b : S64.Idx → EReal) (q : Fin 64) :
    shapeCast S1x64 b shapeCasts_S64_S1x64 (ix2 (0 : Fin 1) q) = b (ix1 q) :=
  (shapeCast_addUnit_apply ![64] b shapeCasts_S64_S1x64 (ix2 (0 : Fin 1) q)).trans
    (congrArg b (funext fun a => match a with | ⟨0, _⟩ => rfl))

/-- The first bias row holds the first bias. -/
theorem V1_bias (c : Dev nD) (q : Fin 128) : V1 m ρ c main_v23 (ix2 (0 : Fin 1) q) = (m ((c : Thread nD τ).loc main_arg4)) (ix1 q) := by
  have e : V1 m ρ c main_v23 = shapeCast S1x128 (m ((c : Thread nD τ).loc main_arg4)) shapeCasts_S128_S1x128 := by
    show StableHlo.after hostOps0 (W0 m ρ c) (Proc.devRef .tc main_v23) = _
    after_results
    rfl
  exact (congrFun e (ix2 (0 : Fin 1) q)).trans (row128 _ q)

/-- The two index vectors, written by the first stretch and left alone by the first region. -/
theorem W2_src (c : Dev nD) : W2 m ρ c (Proc.devRef .tc main_v1) = Net.src (m ((c : Thread nD τ).loc main_arg1)) :=
  (W2_of_ne m ρ c main_v1 (by decide)).trans (by
    show StableHlo.after hostOps0 (W0 m ρ c) (Proc.devRef .tc main_v1) = _
    after_results
    rfl)
theorem W2_dst (c : Dev nD) : W2 m ρ c (Proc.devRef .tc main_v3) = Net.dst (m ((c : Thread nD τ).loc main_arg1)) :=
  (W2_of_ne m ρ c main_v3 (by decide)).trans (by
    show StableHlo.after hostOps0 (W0 m ρ c) (Proc.devRef .tc main_v3) = _
    after_results
    rfl)
/-- An argument the first region does not stage is, at its exit, as launched. -/
theorem W2_b2 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)

/-! ## The first region: the hidden features -/

theorem hidden_eq (c : Dev nD) :
    W2 m ρ c (Proc.devRef .tc main_v24)
      = Net.hidden (m ((c : Thread nD τ).loc main_arg0)) (m ((c : Thread nD τ).loc main_arg1)) (m ((c : Thread nD τ).loc main_arg2)) (m ((c : Thread nD τ).loc main_arg3)) (m ((c : Thread nD τ).loc main_arg4)) := by
  have h := BlocksA.final (V1 m ρ) c (m ((c : Thread nD τ).loc main_arg4)) (V1_bias m ρ c)
  rw [V1_agg m ρ c, V1_x m ρ c, V1_wl m ρ c, V1_wr m ρ c] at h
  exact (W2_arr m ρ c 5).trans h

/-! ## The second stretch: what the second region is entered with -/

set_option maxHeartbeats 8000000 in
/-- The second aggregate: the mean aggregate of the first region's output along the edges. -/
theorem V3_agg (c : Dev nD) :
    V3 m ρ c main_v43 = Net.mean128 (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  rfl

theorem V3_h (c : Dev nD) : V3 m ρ c main_v24 = W2 m ρ c (Proc.devRef .tc main_v24) := by
  show StableHlo.after hostOps1 (W2 m ρ c) (Proc.devRef .tc main_v24) = _
  after_results

/-- The second-layer weights reach the second region as launched: they are among its arrays, which the run's last
    boundary holds, and the last boundary holds every argument as launched. -/
theorem V3_wl (c : Dev nD) : V3 m ρ c main_arg5 = (m ((c : Thread nD τ).loc main_arg5)) :=
  ((W4_arr m ρ c 2).trans (((dat1 (V3 m ρ) c).arrAt_in 2 rfl _).trans (A_eq1 (V3 m ρ) c 2))).symm.trans (W4_main_arg5 m ρ c)
theorem V3_wr (c : Dev nD) : V3 m ρ c main_arg6 = (m ((c : Thread nD τ).loc main_arg6)) :=
  ((W4_arr m ρ c 3).trans (((dat1 (V3 m ρ) c).arrAt_in 3 rfl _).trans (A_eq1 (V3 m ρ) c 3))).symm.trans (W4_main_arg6 m ρ c)

/-- The second bias row holds the second bias. -/
theorem V3_bias (c : Dev nD) (q : Fin 64) : V3 m ρ c main_v44 (ix2 (0 : Fin 1) q) = (m ((c : Thread nD τ).loc main_arg7)) (ix1 q) := by
  have e : V3 m ρ c main_v44 = shapeCast S1x64 (W2 m ρ c (Proc.devRef .tc main_arg7)) shapeCasts_S64_S1x64 := by
    show StableHlo.after hostOps1 (W2 m ρ c) (Proc.devRef .tc main_v44) = _
    after_results
    rfl
  rw [W2_b2 m ρ c] at e
  exact (congrFun e (ix2 (0 : Fin 1) q)).trans (row64 _ q)

/-! ## The second region: the result -/

theorem result_eq (c : Dev nD) :
    W4 m ρ c (Proc.devRef .tc main_v45)
      = Net.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := BlocksB.final (V3 m ρ) c (m ((c : Thread nD τ).loc main_arg7)) (V3_bias m ρ c)
  rw [V3_agg m ρ c, V3_h m ρ c, V3_wl m ρ c, V3_wr m ρ c, W2_src m ρ c, W2_dst m ρ c, hidden_eq m ρ c] at h
  exact (W4_arr m ρ c 5).trans h

/-- THE RUN, READ: every weakly fair execution of the idealized kernel terminates with its result at the network
    function of the arguments and the arguments unchanged. -/
theorem run : θ_run defs (onTc (τ := τ) (main (F := Ideal))) ⟨m, fun _ => 0, ρ⟩ (fun r => ∀ c : Dev nD,
      r.2.mem ((c.tc : Thread nD τ).loc main_v45)
        = Net.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Cert.KernelIdeal.KValue

end
-- ==== Proof.RefValue.lean ====
/-
  The idealized reference's result as the same network function of its arguments.

  The reference is host operations only. Read one stage at a time: its two index vectors and its two aggregates
  are, operation for operation, the shared ones; each layer's two products with a TRANSPOSED weight matrix,
  contracted along the transposed matrix's first axis, are at entry (r, c) the sums over the feature index k of
  feature[r,k]·W[c,k], which is the combine step's own sum; the bias is broadcast along the rows, so entry (r, c)
  gets bias entry c; the rectifier compares with the splat of the zero word. So the hidden features and the result
  are the network's `hidden` and `output`.
-/
import proofs.«144770_j42176578846858_1_alg».proof.Proof.Gen.ReferenceIdeal.Read
import proofs.«144770_j42176578846858_1_alg».proof.Proof.Network
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem
open Cert.KernelIdeal (Net.src Net.dst Net.mean512 Net.mean128 Net.hidden Net.output)

/-! ## The shared host pieces: the same operations in the same order -/

theorem src_eq (x1 : (⟨S2x160000, .i32⟩ : BufTy).Contents (Elt Ideal)) : val_main_v1 (F := Ideal) x1 = Net.src x1 := rfl
theorem dst_eq (x1 : (⟨S2x160000, .i32⟩ : BufTy).Contents (Elt Ideal)) : val_main_v3 (F := Ideal) x1 = Net.dst x1 := rfl

/-- The reference's first aggregate is the shared mean aggregate of the input features. -/
theorem mean512_eq (x0 : (⟨S10000x512, .f32⟩ : BufTy).Contents (Elt Ideal)) (x1 : (⟨S2x160000, .i32⟩ : BufTy).Contents (Elt Ideal)) :
    val_main_v22 (F := Ideal) x0 x1 = Net.mean512 x0 (Net.src x1) (Net.dst x1) := rfl

/-- The reference's second aggregate is the shared mean aggregate of ITS hidden features. -/
theorem mean128_eq (x0 : (⟨S10000x512, .f32⟩ : BufTy).Contents (Elt Ideal)) (x1 : (⟨S2x160000, .i32⟩ : BufTy).Contents (Elt Ideal)) (x2 : (⟨S128x512, .f32⟩ : BufTy).Contents (Elt Ideal)) (x3 : (⟨S128x512, .f32⟩ : BufTy).Contents (Elt Ideal)) (x4 : (⟨S128, .f32⟩ : BufTy).Contents (Elt Ideal)) :
    val_main_v50 (F := Ideal) x0 x1 x2 x3 x4 = Net.mean128 (val_main_v31 (F := Ideal) x0 x1 x2 x3 x4) (Net.src x1) (Net.dst x1) := rfl

/-! ## Where each stage reads its operands, in coordinates -/

theorem l24 (r : Fin 10000) (q : Fin 128) (k : Fin 512) : lidx_main_v24 (ix2 r q) k = ix2 r k :=
  funext fun a => Fin.ext (by match a with | ⟨0, _⟩ => rfl | ⟨1, _⟩ => rfl)
theorem r24 (r : Fin 10000) (q : Fin 128) (k : Fin 512) : idx_main_v23 (ridx_main_v24 (ix2 r q) k) = ix2 q k :=
  funext fun a => Fin.ext (by match a with | ⟨0, _⟩ => rfl | ⟨1, _⟩ => rfl)
theorem l26 (r : Fin 10000) (q : Fin 128) (k : Fin 512) : lidx_main_v26 (ix2 r q) k = ix2 r k :=
  funext fun a => Fin.ext (by match a with | ⟨0, _⟩ => rfl | ⟨1, _⟩ => rfl)
theorem r26 (r : Fin 10000) (q : Fin 128) (k : Fin 512) : idx_main_v25 (ridx_main_v26 (ix2 r q) k) = ix2 q k :=
  funext fun a => Fin.ext (by match a with | ⟨0, _⟩ => rfl | ⟨1, _⟩ => rfl)
theorem b29 (r : Fin 10000) (q : Fin 128) : idx_main_v28 (idx_main_v29 (ix2 r q)) = ix1 q :=
  funext fun a => Fin.ext (by match a with | ⟨0, _⟩ => rfl)
theorem l52 (r : Fin 10000) (q : Fin 64) (k : Fin 128) : lidx_main_v52 (ix2 r q) k = ix2 r k :=
  funext fun a => Fin.ext (by match a with | ⟨0, _⟩ => rfl | ⟨1, _⟩ => rfl)
theorem r52 (r : Fin 10000) (q : Fin 64) (k : Fin 128) : idx_main_v51 (ridx_main_v52 (ix2 r q) k) = ix2 q k :=
  funext fun a => Fin.ext (by match a with | ⟨0, _⟩ => rfl | ⟨1, _⟩ => rfl)
theorem l54 (r : Fin 10000) (q : Fin 64) (k : Fin 128) : lidx_main_v54 (ix2 r q) k = ix2 r k :=
  funext fun a => Fin.ext (by match a with | ⟨0, _⟩ => rfl | ⟨1, _⟩ => rfl)
theorem r54 (r : Fin 10000) (q : Fin 64) (k : Fin 128) : idx_main_v53 (ridx_main_v54 (ix2 r q) k) = ix2 q k :=
  funext fun a => Fin.ext (by match a with | ⟨0, _⟩ => rfl | ⟨1, _⟩ => rfl)
theorem b57 (r : Fin 10000) (q : Fin 64) : idx_main_v56 (idx_main_v57 (ix2 r q)) = ix1 q :=
  funext fun a => Fin.ext (by match a with | ⟨0, _⟩ => rfl)

/-! ## The two layers -/

/-- The reference's hidden features are the network's. -/
theorem hidden_eq (x0 : (⟨S10000x512, .f32⟩ : BufTy).Contents (Elt Ideal)) (x1 : (⟨S2x160000, .i32⟩ : BufTy).Contents (Elt Ideal)) (x2 : (⟨S128x512, .f32⟩ : BufTy).Contents (Elt Ideal)) (x3 : (⟨S128x512, .f32⟩ : BufTy).Contents (Elt Ideal)) (x4 : (⟨S128, .f32⟩ : BufTy).Contents (Elt Ideal)) :
    val_main_v31 (F := Ideal) x0 x1 x2 x3 x4 = Net.hidden x0 x1 x2 x3 x4 := by
  funext i
  obtain ⟨r, q, rfl⟩ : ∃ (r : Fin 10000) (q : Fin 128), i = ix2 r q := ⟨i 0, i 1, eq_ix2 i⟩
  rw [val_main_v31_apply, val_main_v30_apply, val_main_v27_apply, val_main_v24_apply, val_main_v26_apply,
    val_main_v29_apply, val_main_v28_apply, val_main_call0_v0_apply, val_main_call0_cst_apply]
  simp only [val_main_v23_apply, val_main_v25_apply, mean512_eq, l24, r24, l26, r26, b29]
  rfl

/-- The reference's result is the network's. -/
theorem output_eq (x0 : (⟨S10000x512, .f32⟩ : BufTy).Contents (Elt Ideal)) (x1 : (⟨S2x160000, .i32⟩ : BufTy).Contents (Elt Ideal)) (x2 : (⟨S128x512, .f32⟩ : BufTy).Contents (Elt Ideal)) (x3 : (⟨S128x512, .f32⟩ : BufTy).Contents (Elt Ideal)) (x4 : (⟨S128, .f32⟩ : BufTy).Contents (Elt Ideal)) (x5 : (⟨S64x128, .f32⟩ : BufTy).Contents (Elt Ideal)) (x6 : (⟨S64x128, .f32⟩ : BufTy).Contents (Elt Ideal)) (x7 : (⟨S64, .f32⟩ : BufTy).Contents (Elt Ideal)) :
    val_main_v58 (F := Ideal) x0 x1 x2 x3 x4 x5 x6 x7 = Net.output x0 x1 x2 x3 x4 x5 x6 x7 := by
  funext i
  obtain ⟨r, q, rfl⟩ : ∃ (r : Fin 10000) (q : Fin 64), i = ix2 r q := ⟨i 0, i 1, eq_ix2 i⟩
  rw [val_main_v58_apply, val_main_v55_apply, val_main_v52_apply, val_main_v54_apply, val_main_v57_apply, val_main_v56_apply]
  simp only [val_main_v51_apply, val_main_v53_apply, mean128_eq, hidden_eq, l52, r52, l54, r54, b57]
  rfl

/-- The run's result term is the network function of the launch contents of the arguments. -/
theorem res_eq (m : (ℓ : Loc nD τ sig) → Buf (Elt Ideal) ℓ) (c : Dev nD) :
    Cert.ReferenceIdeal.Value.res_main_v58 m c
      = Net.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v58_eq m c).trans (output_eq _ _ _ _ _ _ _ _)

end Cert.ReferenceIdeal.RefValue

end
-- ==== Proof.lean ====
/-
  The certificate of a two-layer mean-aggregating graph network (10000 nodes, 160000 edges; 512 → 128 → 64
  features): the kernel computes each layer's aggregate on the host and its "combine" step
      (agg · Wlᵀ + x · Wrᵀ) + b           (the first layer followed by a rectifier)
  in a row-tiled kernel region, multiplying in bf16; the reference computes everything on the host, with
  transposes and dot products. Over the extended reals a change of float format is the identity and both matrix
  products are the same sums over the feature index, taken in the same order and added in the same order; the host
  aggregates are the same operations on both sides and are never opened. So both programs end with the one network
  function of their arguments (Proof/Network.lean): the kernel by reading each region's ten row blocks back into
  the whole array (Proof/BlocksA.lean, Proof/BlocksB.lean over Proof/Payload.lean) and walking the run's boundaries
  (Proof/KernelValue.lean), the reference stage by stage (Proof/RefValue.lean). No law that needs finite values is
  used, so the precondition is never opened. The idealization rewrote nothing, so `preserves` asks nothing.
-/
import proofs.«144770_j42176578846858_1_alg».proof.Defs
import proofs.«144770_j42176578846858_1_alg».proof.Proof.Gen.Kernel
import proofs.«144770_j42176578846858_1_alg».proof.Proof.Gen.Kernel.Frame
import proofs.«144770_j42176578846858_1_alg».proof.Proof.Gen.KernelIdeal
import proofs.«144770_j42176578846858_1_alg».proof.Proof.Gen.KernelIdeal.Frame
import proofs.«144770_j42176578846858_1_alg».proof.Proof.Gen.ReferenceIdeal
import proofs.«144770_j42176578846858_1_alg».proof.Proof.Gen.ReferenceIdeal.Run
import proofs.«144770_j42176578846858_1_alg».proof.Proof.Gen.Pre_finite_inputs
import proofs.«144770_j42176578846858_1_alg».proof.Proof.KernelValue
import proofs.«144770_j42176578846858_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network function of their arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.res_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
